-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x4 : Shape := ⟨2, ![1048576, 4]⟩
abbrev S4x64 : Shape := ⟨2, ![4, 64]⟩
abbrev S64 : Shape := ⟨1, ![64]⟩
abbrev S64x3 : Shape := ⟨2, ![64, 3]⟩
abbrev S3 : Shape := ⟨1, ![3]⟩
abbrev S_ : Shape := ⟨0, ![]⟩

class Facts : Prop where
  bcast_S_S1048576x4 : S_.BroadcastsInDim S1048576x4 (![] : Fin 0 → Fin S1048576x4.rank)
  reducesTo_S1048576x4_S_d0_1 : S1048576x4.ReducesTo [0, 1] S_
  h_S_ : 0 < S_.numel
  bcast_S_S4x64 : S_.BroadcastsInDim S4x64 (![] : Fin 0 → Fin S4x64.rank)
  reducesTo_S4x64_S_d0_1 : S4x64.ReducesTo [0, 1] S_
  bcast_S_S64 : S_.BroadcastsInDim S64 (![] : Fin 0 → Fin S64.rank)
  reducesTo_S64_S_d0 : S64.ReducesTo [0] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg4 : FVec F S3 .f32) (main_v13 : IVec S_ 1) (main_v16 : IVec S64x3 1) : IVec S_ 1 :=
  let main_c_5 : IVec S_ 1 := constantI S_ 1 1#1
  let main_v17 : IVec S_ 1 := (fun x v => Host.reduce IntOp.andi x v reducesTo_S64x3_S_d0_1 h_S_) main_v16 main_c_5
  let main_v18 : IVec S_ 1 := andi main_v13 main_v17
  let main_v19 : FVec F S3 .f32 := Host.absf main_arg4
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  main_v23

def fn {F : FTy → Type} [FloatOps F] (main_arg0 : FVec F S1048576x4 .f32) (main_arg1 : FVec F S4x64 .f32) (main_arg2 : FVec F S64 .f32) (main_arg3 : FVec F S64x3 .f32) (main_arg4 : FVec F S3 .f32) : IVec S_ 1 :=
  let main_v0 : FVec F S1048576x4 .f32 := Host.absf main_arg0
  let main_cst : FVec F S_ .f32 := constant S_ .f32 0x7F800000#32
  let main_v1 : FVec F S1048576x4 .f32 := broadcastInDim S1048576x4 ![] bcast_S_S1048576x4 main_cst
  let main_v2 : IVec S1048576x4 1 := cmpf .olt main_v0 main_v1
  let main_c : IVec S_ 1 := constantI S_ 1 1#1
  let main_v3 : IVec S_ 1 := (fun x v => Host.reduce IntOp.andi x v reducesTo_S1048576x4_S_d0_1 h_S_) main_v2 main_c
  let main_v4 : FVec F S4x64 .f32 := Host.absf main_arg1
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  let main_c_1 : IVec S_ 1 := constantI S_ 1 1#1
  let main_v7 : IVec S_ 1 := (fun x v => Host.reduce IntOp.andi x v reducesTo_S4x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x3 .f32 := Host.absf main_arg3
  let main_cst_4 : FVec F S_ .f32 := constant S_ .f32 0x7F800000#32
  let main_v15 : FVec F S64x3 .f32 := broadcastInDim S64x3 ![] bcast_S_S64x3 main_cst_4
  let main_v16 : IVec S64x3 1 := cmpf .olt main_v14 main_v15
  fn_part1 (F := F) main_arg4 main_v13 main_v16
-- ==== Kernel.lean ====
abbrev S1048576x4 : Shape := ⟨2, ![1048576, 4]⟩
abbrev S4x64 : Shape := ⟨2, ![4, 64]⟩
abbrev S64 : Shape := ⟨1, ![64]⟩
abbrev S64x3 : Shape := ⟨2, ![64, 3]⟩
abbrev S3 : Shape := ⟨1, ![3]⟩
abbrev S1x4 : Shape := ⟨2, ![1, 4]⟩
abbrev S1x1x1x4 : Shape := ⟨4, ![1, 1, 1, 4]⟩
abbrev S8x1x1x4 : Shape := ⟨4, ![8, 1, 1, 4]⟩
abbrev S8x4 : Shape := ⟨2, ![8, 4]⟩
abbrev S4x1048576 : Shape := ⟨2, ![4, 1048576]⟩
abbrev S64x4 : Shape := ⟨2, ![64, 4]⟩
abbrev S64x1 : Shape := ⟨2, ![64, 1]⟩
abbrev S3x64 : Shape := ⟨2, ![3, 64]⟩
abbrev S3x1 : Shape := ⟨2, ![3, 1]⟩
abbrev S3x1048576 : Shape := ⟨2, ![3, 1048576]⟩
abbrev S4x65536 : Shape := ⟨2, ![4, 65536]⟩
abbrev S3x65536 : Shape := ⟨2, ![3, 65536]⟩
abbrev S8x65536 : Shape := ⟨2, ![8, 65536]⟩
abbrev S64x65536 : Shape := ⟨2, ![64, 65536]⟩
abbrev S1048576x3 : Shape := ⟨2, ![1048576, 3]⟩

abbrev nBuf : Space → Nat
  | .hbm => 16
  | .vmem => 9
  | .smem => 0
  | _ => 0

abbrev bufTy : (tb : Table) → Fin (tcTables nBuf tb) → BufTy
  | .hbm, ⟨0, _⟩ => ⟨S1048576x4, .f32⟩
  | .hbm, ⟨1, _⟩ => ⟨S4x64, .f32⟩
  | .hbm, ⟨2, _⟩ => ⟨S64, .f32⟩
  | .hbm, ⟨3, _⟩ => ⟨S64x3, .f32⟩
  | .hbm, ⟨4, _⟩ => ⟨S3, .f32⟩
  | .hbm, ⟨5, _⟩ => ⟨S1x4, .f32⟩
  | .hbm, ⟨6, _⟩ => ⟨S1x1x1x4, .f32⟩
  | .hbm, ⟨7, _⟩ => ⟨S8x1x1x4, .f32⟩
  | .hbm, ⟨8, _⟩ => ⟨S8x4, .f32⟩
  | .hbm, ⟨9, _⟩ => ⟨S4x1048576, .f32⟩
  | .hbm, ⟨10, _⟩ => ⟨S64x4, .f32⟩
  | .hbm, ⟨11, _⟩ => ⟨S64x1, .f32⟩
  | .hbm, ⟨12, _⟩ => ⟨S3x64, .f32⟩
  | .hbm, ⟨13, _⟩ => ⟨S3x1, .f32⟩
  | .hbm, ⟨14, _⟩ => ⟨S3x1048576, .f32⟩
  | .hbm, ⟨15, _⟩ => ⟨S1048576x3, .f32⟩
  | .local _ .vmem, ⟨0, _⟩ => ⟨S4x65536, .f32⟩
  | .local _ .vmem, ⟨1, _⟩ => ⟨S4x65536, .f32⟩
  | .local _ .vmem, ⟨2, _⟩ => ⟨S64x4, .f32⟩
  | .local _ .vmem, ⟨3, _⟩ => ⟨S64x1, .f32⟩
  | .local _ .vmem, ⟨4, _⟩ => ⟨S3x64, .f32⟩
  | .local _ .vmem, ⟨5, _⟩ => ⟨S3x1, .f32⟩
  | .local _ .vmem, ⟨6, _⟩ => ⟨S8x4, .f32⟩
  | .local _ .vmem, ⟨7, _⟩ => ⟨S3x65536, .f32⟩
  | .local _ .vmem, ⟨8, _⟩ => ⟨S3x65536, .f32⟩
  | _, _ => ⟨S1048576x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S3x65536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S1x4_S1x1x1x4 : S1x4.ShapeCasts S1x1x1x4
  bcast_S1x1x1x4_S8x1x1x4_0_1_2_3 : S1x1x1x4.BroadcastsInDim S8x1x1x4 (![0, 1, 2, 3] : Fin 4 → Fin S8x1x1x4.rank)
  shapeCasts_S8x1x1x4_S8x4 : S8x1x1x4.ShapeCasts S8x4
  transposes_S1048576x4_S4x1048576_1_0 : S1048576x4.Transposes [1, 0] S4x1048576
  transposes_S4x64_S64x4_1_0 : S4x64.Transposes [1, 0] S64x4
  shapeCasts_S64_S64x1 : S64.ShapeCasts S64x1
  transposes_S64x3_S3x64_1_0 : S64x3.Transposes [1, 0] S3x64
  shapeCasts_S3_S3x1 : S3.ShapeCasts S3x1
  inb_S4x65536_S4x65536_0_0 : ∀ a, (![0, 0] : Fin 2 → Nat) a + S4x65536.size a ≤ S4x65536.size a
  h_S4x65536 : 0 < S4x65536.numel
  shapeCasts_S4x65536_S4x65536 : S4x65536.ShapeCasts S4x65536
  inb_S8x4_S8x4_0_0 : ∀ a, (![0, 0] : Fin 2 → Nat) a + S8x4.size a ≤ S8x4.size a
  h_S8x4 : 0 < S8x4.numel
  inb_S64x4_S64x4_0_0 : ∀ a, (![0, 0] : Fin 2 → Nat) a + S64x4.size a ≤ S64x4.size a
  h_S64x4 : 0 < S64x4.numel
  shapeCasts_S64x4_S64x4 : S64x4.ShapeCasts S64x4
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x65536 : S64x1.Broadcasts S64x65536
  inb_S3x64_S3x64_0_0 : ∀ a, (![0, 0] : Fin 2 → Nat) a + S3x64.size a ≤ S3x64.size a
  h_S3x64 : 0 < S3x64.numel
  shapeCasts_S3x64_S3x64 : S3x64.ShapeCasts S3x64
  inb_S3x1_S3x1_0_0 : ∀ a, (![0, 0] : Fin 2 → Nat) a + S3x1.size a ≤ S3x1.size a
  h_S3x1 : 0 < S3x1.numel
  shapeCasts_S3x1_S3x1 : S3x1.ShapeCasts S3x1
  broadcasts_S3x1_S3x65536 : S3x1.Broadcasts S3x65536
  slices_S8x65536_o0_0_S3x65536 : S8x65536.Slices ![0, 0] S3x65536
  inb_S3x65536_S3x65536_0_0 : ∀ a, (![0, 0] : Fin 2 → Nat) a + S3x65536.size a ≤ S3x65536.size a
  h_S3x65536 : 0 < S3x65536.numel
  transposes_S3x1048576_S1048576x3_1_0 : S3x1048576.Transposes [1, 0] S1048576x3
  dot_S8x4_S4x65536_S8x65536_1_0_0_1_n_n_wf : DotDims.WF S8x4 S4x65536 S8x65536 [1] [0] [0] [1] [] []
  dot_S64x4_S4x65536_S64x65536_1_0_0_1_n_n_wf : DotDims.WF S64x4 S4x65536 S64x65536 [1] [0] [0] [1] [] []
  dot_S3x64_S64x65536_S3x65536_1_0_0_1_n_n_wf : DotDims.WF S3x64 S64x65536 S3x65536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x65536.size a ≤ S4x1048576.size a
  hwx0_0 : ∀ i : grid0.Coords, EltTy.bits .f32 = 32 ∨ (Rect.block (s := S4x1048576) S4x65536.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4.size a ≤ S64x4.size a
  hwx0_1 : ∀ i : grid0.Coords, EltTy.bits .f32 = 32 ∨ (Rect.block (s := S64x4) S64x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x64.size a ≤ S3x64.size a
  hwx0_3 : ∀ i : grid0.Coords, EltTy.bits .f32 = 32 ∨ (Rect.block (s := S3x64) S3x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x1.size a ≤ S3x1.size a
  hwx0_4 : ∀ i : grid0.Coords, EltTy.bits .f32 = 32 ∨ (Rect.block (s := S3x1) S3x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x4.size a ≤ S8x4.size a
  hwx0_5 : ∀ i : grid0.Coords, EltTy.bits .f32 = 32 ∨ (Rect.block (s := S8x4) S8x4.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S3x65536.size a ≤ S3x1048576.size a
  hwx0_6 : ∀ i : grid0.Coords, EltTy.bits .f32 = 32 ∨ (Rect.block (s := S3x1048576) S3x65536.size (cc0_transform_6 i) (hinb0_6 i)).WholeWords (EltTy.packing .f32)

variable [Facts₀]

def dot_S8x4_S4x65536_S8x65536_1_0_0_1_n_n : DotDims S8x4 S4x65536 S8x65536 where
  lhsContracting := [1]
  rhsContracting := [0]
  lhsNonContracting := [0]
  rhsNonContracting := [1]
  lhsBatch := []
  rhsBatch := []
  wf := dot_S8x4_S4x65536_S8x65536_1_0_0_1_n_n_wf
def dot_S64x4_S4x65536_S64x65536_1_0_0_1_n_n : DotDims S64x4 S4x65536 S64x65536 where
  lhsContracting := [1]
  rhsContracting := [0]
  lhsNonContracting := [0]
  rhsNonContracting := [1]
  lhsBatch := []
  rhsBatch := []
  wf := dot_S64x4_S4x65536_S64x65536_1_0_0_1_n_n_wf
def dot_S3x64_S64x65536_S3x65536_1_0_0_1_n_n : DotDims S3x64 S64x65536 S3x65536 where
  lhsContracting := [1]
  rhsContracting := [0]
  lhsNonContracting := [0]
  rhsNonContracting := [1]
  lhsBatch := []
  rhsBatch := []
  wf := dot_S3x64_S64x65536_S3x65536_1_0_0_1_n_n_wf

abbrev win0_0 : Pipeline.Window sig grid0 :=
  Pipeline.Window.ofSpec (Memref.whole main_v3) S4x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S64x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S3x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S3x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S8x4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S3x65536.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1048576x4 : Shape := ⟨2, ![1048576, 4]⟩
abbrev S4x64 : Shape := ⟨2, ![4, 64]⟩
abbrev S64 : Shape := ⟨1, ![64]⟩
abbrev S64x3 : Shape := ⟨2, ![64, 3]⟩
abbrev S3 : Shape := ⟨1, ![3]⟩
abbrev S1048576x3 : Shape := ⟨2, ![1048576, 3]⟩
abbrev S_ : Shape := ⟨0, ![]⟩
abbrev S1048576 : Shape := ⟨1, ![1048576]⟩
abbrev S1048576x64 : Shape := ⟨2, ![1048576, 64]⟩
abbrev S1x64 : Shape := ⟨2, ![1, 64]⟩
abbrev S1x3 : Shape := ⟨2, ![1, 3]⟩
abbrev S1048576x1 : Shape := ⟨2, ![1048576, 1]⟩

abbrev nBuf : Space → Nat
  | .hbm => 31
  | .vmem => 0
  | .smem => 0
  | _ => 0

abbrev bufTy : (tb : Table) → Fin (tcTables nBuf tb) → BufTy
  | .hbm, ⟨0, _⟩ => ⟨S1048576x4, .f32⟩
  | .hbm, ⟨1, _⟩ => ⟨S4x64, .f32⟩
  | .hbm, ⟨2, _⟩ => ⟨S64, .f32⟩
  | .hbm, ⟨3, _⟩ => ⟨S64x3, .f32⟩
  | .hbm, ⟨4, _⟩ => ⟨S3, .f32⟩
  | .hbm, ⟨5, _⟩ => ⟨S1048576x3, .f32⟩
  | .hbm, ⟨6, _⟩ => ⟨S_, .f32⟩
  | .hbm, ⟨7, _⟩ => ⟨S1048576x3, .f32⟩
  | .hbm, ⟨8, _⟩ => ⟨S1048576x3, .i1⟩
  | .hbm, ⟨9, _⟩ => ⟨S_, .f32⟩
  | .hbm, ⟨10, _⟩ => ⟨S1048576x3, .f32⟩
  | .hbm, ⟨11, _⟩ => ⟨S1048576x3, .i1⟩
  | .hbm, ⟨12, _⟩ => ⟨S1048576x3, .i1⟩
  | .hbm, ⟨13, _⟩ => ⟨S_, .i1⟩
  | .hbm, ⟨14, _⟩ => ⟨S1048576, .i1⟩
  | .hbm, ⟨15, _⟩ => ⟨S1048576x64, .f32⟩
  | .hbm, ⟨16, _⟩ => ⟨S1x64, .f32⟩
  | .hbm, ⟨17, _⟩ => ⟨S1048576x64, .f32⟩
  | .hbm, ⟨18, _⟩ => ⟨S1048576x64, .f32⟩
  | .hbm, ⟨19, _⟩ => ⟨S_, .f32⟩
  | .hbm, ⟨20, _⟩ => ⟨S1048576x64, .f32⟩
  | .hbm, ⟨21, _⟩ => ⟨S1048576x64, .f32⟩
  | .hbm, ⟨22, _⟩ => ⟨S1048576x3, .f32⟩
  | .hbm, ⟨23, _⟩ => ⟨S1x3, .f32⟩
  | .hbm, ⟨24, _⟩ => ⟨S1048576x3, .f32⟩
  | .hbm, ⟨25, _⟩ => ⟨S1048576x3, .f32⟩
  | .hbm, ⟨26, _⟩ => ⟨S1048576x1, .i1⟩
  | .hbm, ⟨27, _⟩ => ⟨S_, .f32⟩
  | .hbm, ⟨28, _⟩ => ⟨S1048576x3, .i1⟩
  | .hbm, ⟨29, _⟩ => ⟨S1048576x3, .f32⟩
  | .hbm, ⟨30, _⟩ => ⟨S1048576x3, .f32⟩
  | _, _ => ⟨S1048576x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v18 : Ref sig .tc := ⟨.hbm, 30, rfl⟩

abbrev nD : Nat := 1
abbrev τ : Topo := Topo.v7x

variable {F : FTy → Type} [FloatOps F]

class Facts₀ : Prop where
  slices_S1048576x4_S1048576x3_0_0 : S1048576x4.Slices ![0, 0] S1048576x3
  bcast_S_S1048576x3 : S_.BroadcastsInDim S1048576x3 (![] : Fin 0 → Fin S1048576x3.rank)
  reducesTo_S1048576x3_S1048576_d1 : S1048576x3.ReducesTo [1] S1048576
  h_S_ : 0 < S_.numel
  bcast_S64_S1x64_1 : S64.BroadcastsInDim S1x64 (![1] : Fin 1 → Fin S1x64.rank)
  bcast_S1x64_S1048576x64_0_1 : S1x64.BroadcastsInDim S1048576x64 (![0, 1] : Fin 2 → Fin S1048576x64.rank)
  bcast_S_S1048576x64 : S_.BroadcastsInDim S1048576x64 (![] : Fin 0 → Fin S1048576x64.rank)
  bcast_S3_S1x3_1 : S3.BroadcastsInDim S1x3 (![1] : Fin 1 → Fin S1x3.rank)
  bcast_S1x3_S1048576x3_0_1 : S1x3.BroadcastsInDim S1048576x3 (![0, 1] : Fin 2 → Fin S1048576x3.rank)
  bcast_S1048576_S1048576x1_0 : S1048576.BroadcastsInDim S1048576x1 (![0] : Fin 1 → Fin S1048576x1.rank)
  bcast_S1048576x1_S1048576x3_0_1 : S1048576x1.BroadcastsInDim S1048576x3 (![0, 1] : Fin 2 → Fin S1048576x3.rank)
  dot_S1048576x4_S4x64_S1048576x64_1_0_0_1_n_n_wf : DotDims.WF S1048576x4 S4x64 S1048576x64 [1] [0] [0] [1] [] []
  dot_S1048576x64_S64x3_S1048576x3_1_0_0_1_n_n_wf : DotDims.WF S1048576x64 S64x3 S1048576x3 [1] [0] [0] [1] [] []

variable [Facts₀]

def dot_S1048576x4_S4x64_S1048576x64_1_0_0_1_n_n : DotDims S1048576x4 S4x64 S1048576x64 where
  lhsContracting := [1]
  rhsContracting := [0]
  lhsNonContracting := [0]
  rhsNonContracting := [1]
  lhsBatch := []
  rhsBatch := []
  wf := dot_S1048576x4_S4x64_S1048576x64_1_0_0_1_n_n_wf
def dot_S1048576x64_S64x3_S1048576x3_1_0_0_1_n_n : DotDims S1048576x64 S64x3 S1048576x3 where
  lhsContracting := [1]
  rhsContracting := [0]
  lhsNonContracting := [0]
  rhsNonContracting := [1]
  lhsBatch := []
  rhsBatch := []
  wf := dot_S1048576x64_S64x3_S1048576x3_1_0_0_1_n_n_wf

class Facts : Prop extends Facts₀ where

variable [Facts]
-- ==== Proof.KernelPoint.lean ====
/- One grid point of the kernel, at the extended reals, read at an index of its output block.

   The body loads a block x of four coordinate rows and 65536 point columns, the transposed
   weights w1 [64,4] and w2 [3,64], the bias columns b1 [64,1] and b2 [3,1] and the 0/1 matrix
   g [8,4], and stores, at row i and column q,
       0                                   if 0 < Σ_k g[i,k] · max(|x[k,q]| - h, 0),
       Σ_j w2[i,j] · max(Σ_k w1[j,k]·x[k,q] + b1[j,0], 0) + b2[i,0]   otherwise.
   Each of the three matrix products is a sum over its one contracted axis; a bias column
   broadcast along the points is its row's entry; the first three of the eight indicator rows
   are the ones compared. -/
import proofs.«152543_g24309514896055_cont_9to1_421_21_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Point

open Cert.KernelIdeal Cert.KernelIdeal.Gen Idealize.ShloMosaic Idealize.ShloMosaic.ValueIdx

/-! ## The indicator product [8,4] × [4,65536] -/

theorem lhs_ind_0 (i : S8x65536.Idx) (q : dot_S8x4_S4x65536_S8x65536_1_0_0_1_n_n.contr.Idx) :
    (dot_S8x4_S4x65536_S8x65536_1_0_0_1_n_n.lhsIdx i q 0).val = (i 0).val := by
  unfold DotDims.lhsIdx
  rw [dif_neg (show ¬(0 : Fin S8x4.rank) ∈ dot_S8x4_S4x65536_S8x65536_1_0_0_1_n_n.lhsBatch by decide), dif_pos (show (0 : Fin S8x4.rank) ∈ dot_S8x4_S4x65536_S8x65536_1_0_0_1_n_n.lhsNonContracting by decide)]
  rfl
theorem lhs_ind_1 (i : S8x65536.Idx) (q : dot_S8x4_S4x65536_S8x65536_1_0_0_1_n_n.contr.Idx) :
    (dot_S8x4_S4x65536_S8x65536_1_0_0_1_n_n.lhsIdx i q 1).val = (q ⟨0, by decide⟩).val :=
  dot_S8x4_S4x65536_S8x65536_1_0_0_1_n_n.lhsIdx_val_of_single rfl i q
theorem rhs_ind_0 (i : S8x65536.Idx) (q : dot_S8x4_S4x65536_S8x65536_1_0_0_1_n_n.contr.Idx) :
    (dot_S8x4_S4x65536_S8x65536_1_0_0_1_n_n.rhsIdx i q 0).val = (q ⟨0, by decide⟩).val :=
  dot_S8x4_S4x65536_S8x65536_1_0_0_1_n_n.rhsIdx_val_of_single rfl i q
theorem rhs_ind_1 (i : S8x65536.Idx) (q : dot_S8x4_S4x65536_S8x65536_1_0_0_1_n_n.contr.Idx) :
    (dot_S8x4_S4x65536_S8x65536_1_0_0_1_n_n.rhsIdx i q 1).val = (i 1).val := by
  unfold DotDims.rhsIdx
  rw [dif_neg (show ¬(1 : Fin S4x65536.rank) ∈ dot_S8x4_S4x65536_S8x65536_1_0_0_1_n_n.rhsBatch by decide), dif_pos (show (1 : Fin S4x65536.rank) ∈ dot_S8x4_S4x65536_S8x65536_1_0_0_1_n_n.rhsNonContracting by decide)]
  rfl

/-- Row `a`, column `q` of the indicator product is the sum over the four coordinates. -/
theorem ind_matmul_apply (g : FVec Ideal S8x4 .f32) (r : FVec Ideal S4x65536 .f32) (a : Fin 8) (q : Fin 65536) :
    matmul dot_S8x4_S4x65536_S8x65536_1_0_0_1_n_n none g r (constant S8x65536 .f32 0x00000000#32) (ix2 a q)
      = ∑ k : Fin 4, g (ix2 a k) * r (ix2 k q) := by
  simp only [matmul]
  rw [Ideal.matmul_constant_zero_apply, ← Equiv.sum_comp (contrEquiv1 dot_S8x4_S4x65536_S8x65536_1_0_0_1_n_n 4 rfl rfl).symm]
  refine Finset.sum_congr rfl fun k _ => ?_
  have hk := contrEquiv1_symm_val dot_S8x4_S4x65536_S8x65536_1_0_0_1_n_n 4 rfl rfl k
  have el : dot_S8x4_S4x65536_S8x65536_1_0_0_1_n_n.lhsIdx (ix2 a q) ((contrEquiv1 dot_S8x4_S4x65536_S8x65536_1_0_0_1_n_n 4 rfl rfl).symm k) = ix2 a k := funext fun b => Fin.ext (by
    match b with
    | ⟨0, _⟩ => exact lhs_ind_0 _ _
    | ⟨1, _⟩ => exact (lhs_ind_1 _ _).trans hk)
  have er : dot_S8x4_S4x65536_S8x65536_1_0_0_1_n_n.rhsIdx (ix2 a q) ((contrEquiv1 dot_S8x4_S4x65536_S8x65536_1_0_0_1_n_n 4 rfl rfl).symm k) = ix2 k q := funext fun b => Fin.ext (by
    match b with
    | ⟨0, _⟩ => exact (rhs_ind_0 _ _).trans hk
    | ⟨1, _⟩ => exact rhs_ind_1 _ _)
  rw [el, er]

/-! ## The first layer's product [64,4] × [4,65536] -/

theorem lhs_hid_0 (i : S64x65536.Idx) (q : dot_S64x4_S4x65536_S64x65536_1_0_0_1_n_n.contr.Idx) :
    (dot_S64x4_S4x65536_S64x65536_1_0_0_1_n_n.lhsIdx i q 0).val = (i 0).val := by
  unfold DotDims.lhsIdx
  rw [dif_neg (show ¬(0 : Fin S64x4.rank) ∈ dot_S64x4_S4x65536_S64x65536_1_0_0_1_n_n.lhsBatch by decide), dif_pos (show (0 : Fin S64x4.rank) ∈ dot_S64x4_S4x65536_S64x65536_1_0_0_1_n_n.lhsNonContracting by decide)]
  rfl
theorem lhs_hid_1 (i : S64x65536.Idx) (q : dot_S64x4_S4x65536_S64x65536_1_0_0_1_n_n.contr.Idx) :
    (dot_S64x4_S4x65536_S64x65536_1_0_0_1_n_n.lhsIdx i q 1).val = (q ⟨0, by decide⟩).val :=
  dot_S64x4_S4x65536_S64x65536_1_0_0_1_n_n.lhsIdx_val_of_single rfl i q
theorem rhs_hid_0 (i : S64x65536.Idx) (q : dot_S64x4_S4x65536_S64x65536_1_0_0_1_n_n.contr.Idx) :
    (dot_S64x4_S4x65536_S64x65536_1_0_0_1_n_n.rhsIdx i q 0).val = (q ⟨0, by decide⟩).val :=
  dot_S64x4_S4x65536_S64x65536_1_0_0_1_n_n.rhsIdx_val_of_single rfl i q
theorem rhs_hid_1 (i : S64x65536.Idx) (q : dot_S64x4_S4x65536_S64x65536_1_0_0_1_n_n.contr.Idx) :
    (dot_S64x4_S4x65536_S64x65536_1_0_0_1_n_n.rhsIdx i q 1).val = (i 1).val := by
  unfold DotDims.rhsIdx
  rw [dif_neg (show ¬(1 : Fin S4x65536.rank) ∈ dot_S64x4_S4x65536_S64x65536_1_0_0_1_n_n.rhsBatch by decide), dif_pos (show (1 : Fin S4x65536.rank) ∈ dot_S64x4_S4x65536_S64x65536_1_0_0_1_n_n.rhsNonContracting by decide)]
  rfl

/-- Unit `j`, column `q` of the first layer's product is the sum over the four coordinates. -/
theorem hid_matmul_apply (w : FVec Ideal S64x4 .f32) (x : FVec Ideal S4x65536 .f32) (j : Fin 64) (q : Fin 65536) :
    matmul dot_S64x4_S4x65536_S64x65536_1_0_0_1_n_n none w x (constant S64x65536 .f32 0x00000000#32) (ix2 j q)
      = ∑ k : Fin 4, w (ix2 j k) * x (ix2 k q) := by
  simp only [matmul]
  rw [Ideal.matmul_constant_zero_apply, ← Equiv.sum_comp (contrEquiv1 dot_S64x4_S4x65536_S64x65536_1_0_0_1_n_n 4 rfl rfl).symm]
  refine Finset.sum_congr rfl fun k _ => ?_
  have hk := contrEquiv1_symm_val dot_S64x4_S4x65536_S64x65536_1_0_0_1_n_n 4 rfl rfl k
  have el : dot_S64x4_S4x65536_S64x65536_1_0_0_1_n_n.lhsIdx (ix2 j q) ((contrEquiv1 dot_S64x4_S4x65536_S64x65536_1_0_0_1_n_n 4 rfl rfl).symm k) = ix2 j k := funext fun b => Fin.ext (by
    match b with
    | ⟨0, _⟩ => exact lhs_hid_0 _ _
    | ⟨1, _⟩ => exact (lhs_hid_1 _ _).trans hk)
  have er : dot_S64x4_S4x65536_S64x65536_1_0_0_1_n_n.rhsIdx (ix2 j q) ((contrEquiv1 dot_S64x4_S4x65536_S64x65536_1_0_0_1_n_n 4 rfl rfl).symm k) = ix2 k q := funext fun b => Fin.ext (by
    match b with
    | ⟨0, _⟩ => exact (rhs_hid_0 _ _).trans hk
    | ⟨1, _⟩ => exact rhs_hid_1 _ _)
  rw [el, er]

/-! ## The second layer's product [3,64] × [64,65536] -/

theorem lhs_out_0 (i : S3x65536.Idx) (q : dot_S3x64_S64x65536_S3x65536_1_0_0_1_n_n.contr.Idx) :
    (dot_S3x64_S64x65536_S3x65536_1_0_0_1_n_n.lhsIdx i q 0).val = (i 0).val := by
  unfold DotDims.lhsIdx
  rw [dif_neg (show ¬(0 : Fin S3x64.rank) ∈ dot_S3x64_S64x65536_S3x65536_1_0_0_1_n_n.lhsBatch by decide), dif_pos (show (0 : Fin S3x64.rank) ∈ dot_S3x64_S64x65536_S3x65536_1_0_0_1_n_n.lhsNonContracting by decide)]
  rfl
theorem lhs_out_1 (i : S3x65536.Idx) (q : dot_S3x64_S64x65536_S3x65536_1_0_0_1_n_n.contr.Idx) :
    (dot_S3x64_S64x65536_S3x65536_1_0_0_1_n_n.lhsIdx i q 1).val = (q ⟨0, by decide⟩).val :=
  dot_S3x64_S64x65536_S3x65536_1_0_0_1_n_n.lhsIdx_val_of_single rfl i q
theorem rhs_out_0 (i : S3x65536.Idx) (q : dot_S3x64_S64x65536_S3x65536_1_0_0_1_n_n.contr.Idx) :
    (dot_S3x64_S64x65536_S3x65536_1_0_0_1_n_n.rhsIdx i q 0).val = (q ⟨0, by decide⟩).val :=
  dot_S3x64_S64x65536_S3x65536_1_0_0_1_n_n.rhsIdx_val_of_single rfl i q
theorem rhs_out_1 (i : S3x65536.Idx) (q : dot_S3x64_S64x65536_S3x65536_1_0_0_1_n_n.contr.Idx) :
    (dot_S3x64_S64x65536_S3x65536_1_0_0_1_n_n.rhsIdx i q 1).val = (i 1).val := by
  unfold DotDims.rhsIdx
  rw [dif_neg (show ¬(1 : Fin S64x65536.rank) ∈ dot_S3x64_S64x65536_S3x65536_1_0_0_1_n_n.rhsBatch by decide), dif_pos (show (1 : Fin S64x65536.rank) ∈ dot_S3x64_S64x65536_S3x65536_1_0_0_1_n_n.rhsNonContracting by decide)]
  rfl

/-- Component `i`, column `q` of the second layer's product is the sum over the 64 hidden units. -/
theorem out_matmul_apply (w : FVec Ideal S3x64 .f32) (h : FVec Ideal S64x65536 .f32) (i : Fin 3) (q : Fin 65536) :
    matmul dot_S3x64_S64x65536_S3x65536_1_0_0_1_n_n none w h (constant S3x65536 .f32 0x00000000#32) (ix2 i q)
      = ∑ j : Fin 64, w (ix2 i j) * h (ix2 j q) := by
  simp only [matmul]
  rw [Ideal.matmul_constant_zero_apply, ← Equiv.sum_comp (contrEquiv1 dot_S3x64_S64x65536_S3x65536_1_0_0_1_n_n 64 rfl rfl).symm]
  refine Finset.sum_congr rfl fun k _ => ?_
  have hk := contrEquiv1_symm_val dot_S3x64_S64x65536_S3x65536_1_0_0_1_n_n 64 rfl rfl k
  have el : dot_S3x64_S64x65536_S3x65536_1_0_0_1_n_n.lhsIdx (ix2 i q) ((contrEquiv1 dot_S3x64_S64x65536_S3x65536_1_0_0_1_n_n 64 rfl rfl).symm k) = ix2 i k := funext fun b => Fin.ext (by
    match b with
    | ⟨0, _⟩ => exact lhs_out_0 _ _
    | ⟨1, _⟩ => exact (lhs_out_1 _ _).trans hk)
  have er : dot_S3x64_S64x65536_S3x65536_1_0_0_1_n_n.rhsIdx (ix2 i q) ((contrEquiv1 dot_S3x64_S64x65536_S3x65536_1_0_0_1_n_n 64 rfl rfl).symm k) = ix2 k q := funext fun b => Fin.ext (by
    match b with
    | ⟨0, _⟩ => exact (rhs_out_0 _ _).trans hk
    | ⟨1, _⟩ => exact rhs_out_1 _ _)
  rw [el, er]

/-! ## The layout operations at an index -/

/-- The first layer's bias column, broadcast along the points, is its row's entry. -/
theorem bias64_apply (b : FVec Ideal S64x1 .f32) (j : Fin 64) (q : Fin 65536) :
    broadcastTo S64x65536 b broadcasts_S64x1_S64x65536 (ix2 j q) = b (ix2 j 0) :=
  broadcastTo_apply b broadcasts_S64x1_S64x65536 (ix2 j q) (ix2 j 0) (fun a => by
    match a with
    | ⟨0, _⟩ => show j.val = if (64 : Nat) = 1 then 0 else j.val; rw [if_neg (by decide)]
    | ⟨1, _⟩ => show 0 = if (1 : Nat) = 1 then 0 else q.val; rw [if_pos rfl])

/-- The second layer's bias column, broadcast along the points, is its row's entry. -/
theorem bias3_apply (b : FVec Ideal S3x1 .f32) (i : Fin 3) (q : Fin 65536) :
    broadcastTo S3x65536 b broadcasts_S3x1_S3x65536 (ix2 i q) = b (ix2 i 0) :=
  broadcastTo_apply b broadcasts_S3x1_S3x65536 (ix2 i q) (ix2 i 0) (fun a => by
    match a with
    | ⟨0, _⟩ => show i.val = if (3 : Nat) = 1 then 0 else i.val; rw [if_neg (by decide)]
    | ⟨1, _⟩ => show 0 = if (1 : Nat) = 1 then 0 else q.val; rw [if_pos rfl])

/-- Row `i < 3` of the eight indicator rows. -/
abbrev row8 (i : Fin 3) : Fin 8 := ⟨i.val, by have := i.isLt; omega⟩

/-- The first three rows of an [8,65536] array, read at row `i`. -/
theorem rows3_apply (s : FVec Ideal S8x65536 .f32) (i : Fin 3) (q : Fin 65536) :
    extractStridedSlice S3x65536 ![0, 0] s slices_S8x65536_o0_0_S3x65536 (ix2 i q) = s (ix2 (row8 i) q) :=
  extractStridedSlice_apply ![0, 0] s slices_S8x65536_o0_0_S3x65536 (ix2 i q) (ix2 (row8 i) q) (fun a => by
    match a with
    | ⟨0, _⟩ => show i.val = 0 + i.val; omega
    | ⟨1, _⟩ => show q.val = 0 + q.val; omega)

/-! ## The stored value at an index -/

/-- The weighted excess of column `q` in indicator row `a`. -/
def excessSum (x : Vec Ideal S4x65536 .f32) (g : Vec Ideal S8x4 .f32) (a : Fin 8) (q : Fin 65536) : EReal :=
  ∑ k : Fin 4, g (ix2 a k) * max (max (x (ix2 k q)) (-(x (ix2 k q))) - Ideal.ofBits .f32 0x3F83D70A#32) (Ideal.ofBits .f32 0x00000000#32)

/-- The hidden unit `j` of column `q`. -/
def hid (x : Vec Ideal S4x65536 .f32) (w1 : Vec Ideal S64x4 .f32) (b1 : Vec Ideal S64x1 .f32) (j : Fin 64) (q : Fin 65536) : EReal :=
  max ((∑ k : Fin 4, w1 (ix2 j k) * x (ix2 k q)) + b1 (ix2 j 0)) (Ideal.ofBits .f32 0x00000000#32)

/-- The velocity component `i` of column `q`. -/
def vel (x : Vec Ideal S4x65536 .f32) (w1 : Vec Ideal S64x4 .f32) (b1 : Vec Ideal S64x1 .f32) (w2 : Vec Ideal S3x64 .f32)
    (b2 : Vec Ideal S3x1 .f32) (i : Fin 3) (q : Fin 65536) : EReal :=
  (∑ j : Fin 64, w2 (ix2 i j) * hid x w1 b1 j q) + b2 (ix2 i 0)

/-- What the body stores at row `i`, column `q`. -/
theorem pay_apply (x : Vec Ideal S4x65536 .f32) (g : Vec Ideal S8x4 .f32) (w1 : Vec Ideal S64x4 .f32) (b1 : Vec Ideal S64x1 .f32)
    (w2 : Vec Ideal S3x64 .f32) (b2 : Vec Ideal S3x1 .f32) (i : Fin 3) (q : Fin 65536) :
    k0_pay1 (F := Ideal) x g w1 b1 w2 b2 (ix2 i q)
      = Scalar.select (Ideal.cmp .ogt (excessSum x g (row8 i) q) (Ideal.ofBits .f32 0x00000000#32))
          (Ideal.ofBits .f32 0x00000000#32) (vel x w1 b1 w2 b2 i q) := by
  unfold k0_pay1
  simp only [shapeCast_self]
  rw [select_apply, cmpf_apply, broadcast_apply, addf_apply, rows3_apply, ind_matmul_apply, out_matmul_apply, bias3_apply]
  have hh : ∀ j : Fin 64, maximumf (F := Ideal) (addf (matmul dot_S64x4_S4x65536_S64x65536_1_0_0_1_n_n none w1 x (constant S64x65536 .f32 0x00000000#32))
        (broadcastTo S64x65536 b1 broadcasts_S64x1_S64x65536)) (broadcast S64x65536 (FloatOps.ofBits .f32 0x00000000#32)) (ix2 j q)
      = hid x w1 b1 j q := fun j => by
    rw [maximumf_apply, addf_apply, hid_matmul_apply, bias64_apply, broadcast_apply]
    rfl
  simp only [hh]
  rfl

end Cert.KernelIdeal.Point

end
-- ==== Proof.Consts.lean ====
/- The float literals of the two programs, as the extended reals their patterns denote.

   The bounding box's half-width is written 1.03 in both sources; in binary32 that is the pattern
   0x3F83D70A, the dyadic 8640266 / 2^23. The reference compares against both +1.03 and -1.03
   (pattern 0xBF83D70A: the same magnitude with the sign bit set), the kernel subtracts +1.03
   from an absolute value, so the one fact the comparison of the two needs is that the second
   pattern denotes the negative of the first. The indicator matrix the kernel multiplies by
   holds the patterns of 1.0 and 0.0. -/
import Idealize.ShloMosaic.PureOps.Ideal

noncomputable section

namespace Cert.Bbox

open Idealize.ShloMosaic

/-- The half-width of the box as a real number: binary32's nearest to 1.03. -/
def halfWidth : ℝ := 8640266 / 8388608

theorem halfWidth_pos : 0 < halfWidth := by unfold halfWidth; norm_num

/-- The pattern of +1.03 denotes the half-width. -/
theorem ofBits_pos : Ideal.ofBits .f32 0x3F83D70A#32 = ((halfWidth : ℝ) : EReal) := by
  simp [Ideal.ofBits, Ideal.ieee, -EReal.coe_mul, halfWidth]; norm_num

/-- The pattern of -1.03 denotes its negative. -/
theorem ofBits_neg : Ideal.ofBits .f32 0xBF83D70A#32 = ((-halfWidth : ℝ) : EReal) := by
  simp [Ideal.ofBits, Ideal.ieee, -EReal.coe_mul, halfWidth]; norm_num

/-- The pattern of 1.0 denotes 1. -/
theorem ofBits_one : Ideal.ofBits .f32 0x3F800000#32 = 1 := by
  simp [Ideal.ofBits, Ideal.ieee, -EReal.coe_mul]; norm_num

/-- The pattern of +0.0 denotes 0. -/
theorem ofBits_zero : Ideal.ofBits .f32 0x00000000#32 = 0 := by
  simp [Ideal.ofBits, Ideal.ieee]

end Cert.Bbox

end
-- ==== Proof.Spec.lean ====
/- The function both programs compute, and the one order fact that joins their two masks.

   For a point n with coordinates X[n,0..3] (the fourth is time and is not tested), the velocity
   network is  hidden[n,j] = max(Σ_k X[n,k]·W1[k,j] + B1[j], 0)  and
   velocity[n,i] = Σ_j hidden[n,j]·W2[j,i] + B2[i];  the result is 0 where some spatial coordinate
   lies outside [-h, h] (h the half-width) and the velocity elsewhere.

   The reference tests  X[n,k] < -h  or  h < X[n,k]  for k < 3 and takes the disjunction.  The
   kernel forms the excess  e_k = max(|X[n,k]| - h, 0) ≥ 0  of all four coordinates and tests
   0 < 1·e_0 + 1·e_1 + 1·e_2 + 0·e_3.  A sum of non-negative extended reals is positive exactly
   when a summand is, and  0 < max(max(x,-x) - h, 0)  exactly when  x < -h or h < x:  both hold on
   all of [-∞, +∞], so no finiteness of the inputs is used. -/
import Idealize.ShloMosaic.PureOps.Ideal
import Idealize.ShloMosaic.Lib.ValueIdx
import proofs.«152543_g24309514896055_cont_9to1_421_21_alg».proof.Proof.Consts

noncomputable section

namespace Cert.Bbox

open Idealize.ShloMosaic Idealize.ShloMosaic.ValueIdx

/-! ## The specification -/

section Spec

variable (X : (⟨2, ![1048576, 4]⟩ : Shape).Idx → EReal) (W1 : (⟨2, ![4, 64]⟩ : Shape).Idx → EReal)
  (B1 : (⟨1, ![64]⟩ : Shape).Idx → EReal) (W2 : (⟨2, ![64, 3]⟩ : Shape).Idx → EReal)
  (B2 : (⟨1, ![3]⟩ : Shape).Idx → EReal)

/-- The hidden layer of point `n`, unit `j`. -/
def hiddenUnit (n : Fin 1048576) (j : Fin 64) : EReal :=
  max (∑ k : Fin 4, X (ix2 n k) * W1 (ix2 k j) + B1 (ix1 j)) 0

/-- The velocity of point `n`, component `i`. -/
def velocity (n : Fin 1048576) (i : Fin 3) : EReal :=
  ∑ j : Fin 64, hiddenUnit X W1 B1 n j * W2 (ix2 j i) + B2 (ix1 i)

/-- Point `n` has a spatial coordinate outside the box. -/
def outside (n : Fin 1048576) : Prop :=
  ∃ k : Fin 3, X (ix2 n k.castSucc) < ((-halfWidth : ℝ) : EReal) ∨ ((halfWidth : ℝ) : EReal) < X (ix2 n k.castSucc)

open scoped Classical in
/-- The result: zero outside the box, the velocity inside. -/
def maskedVelocity : (⟨2, ![1048576, 3]⟩ : Shape).Idx → EReal := fun i =>
  if outside X (i 0) then 0 else velocity X W1 B1 W2 B2 (i 0) (i 1)

/-- Outside the box the result is zero. -/
theorem maskedVelocity_outside {n : Fin 1048576} (i : Fin 3) (h : outside X n) :
    maskedVelocity X W1 B1 W2 B2 (ix2 n i) = 0 := if_pos h

/-- Inside the box the result is the velocity. -/
theorem maskedVelocity_inside {n : Fin 1048576} (i : Fin 3) (h : ¬ outside X n) :
    maskedVelocity X W1 B1 W2 B2 (ix2 n i) = velocity X W1 B1 W2 B2 n i := if_neg h

end Spec

/-! ## The order facts -/

/-- The excess of a coordinate over the half-width is positive exactly outside `[-h, h]`. -/
theorem excess_pos_iff (x : EReal) :
    0 < max (max x (-x) - ((halfWidth : ℝ) : EReal)) 0
      ↔ x < ((-halfWidth : ℝ) : EReal) ∨ ((halfWidth : ℝ) : EReal) < x := by
  rw [lt_max_iff, lt_self_iff_false, or_false, EReal.sub_pos, lt_max_iff, EReal.lt_neg_comm, EReal.coe_neg]
  exact or_comm

/-- The excess is never negative. -/
theorem excess_nonneg (x : EReal) : 0 ≤ max (max x (-x) - ((halfWidth : ℝ) : EReal)) 0 := le_max_right _ _

/-- Weights (1, 1, 1, 0) against four non-negative terms: the weighted sum is positive exactly
    when one of the first three terms is. -/
theorem indicator_sum_pos_iff (g r : Fin 4 → EReal) (g0 : g 0 = 1) (g1 : g 1 = 1) (g2 : g 2 = 1) (g3 : g 3 = 0)
    (hr : ∀ k, 0 ≤ r k) : 0 < ∑ k : Fin 4, g k * r k ↔ ∃ k : Fin 3, 0 < r k.castSucc := by
  rw [Fin.sum_univ_four, g0, g1, g2, g3, one_mul, one_mul, one_mul, zero_mul, add_zero]
  constructor
  · intro h
    by_contra hne
    simp only [not_exists, not_lt] at hne
    have h0 : r 0 ≤ 0 := hne 0
    have h1 : r 1 ≤ 0 := hne 1
    have h2 : r 2 ≤ 0 := hne 2
    exact absurd h (not_lt.2 (add_nonpos (add_nonpos h0 h1) h2))
  · rintro ⟨k, hk⟩
    match k, hk with
    | ⟨0, _⟩, hk => exact add_pos_of_pos_of_nonneg (add_pos_of_pos_of_nonneg hk (hr 1)) (hr 2)
    | ⟨1, _⟩, hk => exact add_pos_of_pos_of_nonneg (lt_of_lt_of_le hk (le_add_of_nonneg_left (hr 0))) (hr 2)
    | ⟨2, _⟩, hk => exact lt_of_lt_of_le hk (le_add_of_nonneg_left (add_nonneg (hr 0) (hr 1)))

/-- The kernel's test is the reference's: the (1, 1, 1, 0)-weighted sum of the four excesses is
    positive exactly when a spatial coordinate is outside the box. -/
theorem weighted_excess_pos_iff (g x : Fin 4 → EReal) (g0 : g 0 = 1) (g1 : g 1 = 1) (g2 : g 2 = 1) (g3 : g 3 = 0) :
    0 < ∑ k : Fin 4, g k * max (max (x k) (-(x k)) - ((halfWidth : ℝ) : EReal)) 0
      ↔ ∃ k : Fin 3, x k.castSucc < ((-halfWidth : ℝ) : EReal) ∨ ((halfWidth : ℝ) : EReal) < x k.castSucc := by
  rw [indicator_sum_pos_iff g (fun k => max (max (x k) (-(x k)) - ((halfWidth : ℝ) : EReal)) 0) g0 g1 g2 g3
    (fun k => excess_nonneg (x k))]
  exact exists_congr fun k => excess_pos_iff (x k.castSucc)

end Cert.Bbox

end
-- ==== Proof.PointSpec.lean ====
/- One stored element of the kernel is the specification's.

   At a point whose four coordinate entries are the array's row n, whose indicator matrix holds
   (1, 1, 1, 0) in every row and whose weight and bias blocks are the transposed and reshaped
   parameters, the kernel's weighted excess is positive exactly when the point is outside the box
   (the order fact of the specification), and its velocity is the specification's with each
   product's two factors exchanged. -/
import proofs.«152543_g24309514896055_cont_9to1_421_21_alg».proof.Proof.KernelPoint
import proofs.«152543_g24309514896055_cont_9to1_421_21_alg».proof.Proof.Spec

noncomputable section

namespace Cert.KernelIdeal.Point

open Cert.KernelIdeal Cert.Bbox Idealize.ShloMosaic Idealize.ShloMosaic.ValueIdx

/-- A selection on the comparison `z < s` is the conditional on it. -/
theorem select_gt (s z a b : EReal) : Scalar.select (Ideal.cmp .ogt s z) a b = if z < s then a else b := by
  by_cases h : z < s <;> simp [Ideal.cmp, Scalar.select, h]

theorem stored_eq_masked
    (x : Vec Ideal S4x65536 .f32) (g : Vec Ideal S8x4 .f32) (w1 : Vec Ideal S64x4 .f32) (b1 : Vec Ideal S64x1 .f32)
    (w2 : Vec Ideal S3x64 .f32) (b2 : Vec Ideal S3x1 .f32)
    (X : (⟨2, ![1048576, 4]⟩ : Shape).Idx → EReal) (W1 : (⟨2, ![4, 64]⟩ : Shape).Idx → EReal)
    (B1 : (⟨1, ![64]⟩ : Shape).Idx → EReal) (W2 : (⟨2, ![64, 3]⟩ : Shape).Idx → EReal) (B2 : (⟨1, ![3]⟩ : Shape).Idx → EReal)
    (n : Fin 1048576) (i : Fin 3) (q : Fin 65536)
    (hx : ∀ k : Fin 4, x (ix2 k q) = X (ix2 n k))
    (hg : ∀ (a : Fin 8) (k : Fin 4), g (ix2 a k) = Ideal.ofBits .f32 (lit0 k))
    (hw1 : ∀ (j : Fin 64) (k : Fin 4), w1 (ix2 j k) = W1 (ix2 k j))
    (hb1 : ∀ j : Fin 64, b1 (ix2 j 0) = B1 (ix1 j))
    (hw2 : ∀ (i : Fin 3) (j : Fin 64), w2 (ix2 i j) = W2 (ix2 j i))
    (hb2 : ∀ i : Fin 3, b2 (ix2 i 0) = B2 (ix1 i)) :
    Scalar.select (Ideal.cmp .ogt (excessSum x g (row8 i) q) (Ideal.ofBits .f32 0x00000000#32))
        (Ideal.ofBits .f32 0x00000000#32) (vel x w1 b1 w2 b2 i q)
      = maskedVelocity X W1 B1 W2 B2 (ix2 n i) := by
  have hvel : vel x w1 b1 w2 b2 i q = velocity X W1 B1 W2 B2 n i := by
    unfold vel velocity hid hiddenUnit
    rw [hb2, ofBits_zero]
    refine congrArg (· + B2 (ix1 i)) (Finset.sum_congr rfl fun j _ => ?_)
    rw [hw2, hb1, mul_comm]
    refine congrArg (fun s => max (s + B1 (ix1 j)) 0 * W2 (ix2 j i)) (Finset.sum_congr rfl fun k _ => ?_)
    rw [hw1, hx, mul_comm]
  have hmask : 0 < excessSum x g (row8 i) q ↔ outside X n := by
    unfold excessSum outside
    rw [ofBits_pos, ofBits_zero]
    have h := weighted_excess_pos_iff (fun k => g (ix2 (row8 i) k)) (fun k => X (ix2 n k))
      ((hg _ 0).trans ofBits_one) ((hg _ 1).trans ofBits_one) ((hg _ 2).trans ofBits_one) ((hg _ 3).trans ofBits_zero)
    simp only [hx]
    exact h
  rw [select_gt, ofBits_zero, hvel]
  by_cases ho : outside X n
  · rw [maskedVelocity_outside X W1 B1 W2 B2 i ho, if_pos (hmask.2 ho)]
  · rw [maskedVelocity_inside X W1 B1 W2 B2 i ho, if_neg (fun h => ho (hmask.1 h))]

end Cert.KernelIdeal.Point

end
-- ==== Proof.KernelArray.lean ====
/- The kernel's result array, as one function of the argument arrays.

   The host lines before the launch hand the region the transposed points [4,N], the transposed
   weights, the biases as columns and the constant 0/1 matrix (eight rows (1, 1, 1, 0)).  Grid
   point t works on the 65536 columns t·65536 … t·65536 + 65535 of the points and writes the same
   columns of the [3,N] result; the sixteen points tile it.  Entry by entry the stored value is
   the specification's at (n, i) = (column, row), so the [3,N] array is the specification
   transposed, and the host's closing transpose returns the specification itself. -/
import proofs.«152543_g24309514896055_cont_9to1_421_21_alg».proof.Proof.Gen.KernelIdeal.Frame
import proofs.«152543_g24309514896055_cont_9to1_421_21_alg».proof.Proof.PointSpec
import Idealize.ShloMosaic.Lib.StableHlo.Run
import Idealize.ShloMosaic.Lib.Pipeline.Value
import Idealize.ShloMosaic.Lib.ValueIdx

set_option maxRecDepth 16384

noncomputable section

namespace Cert.KernelIdeal.Whole

open Cert.KernelIdeal Cert.KernelIdeal.Gen Cert.Bbox Idealize.ShloMosaic Idealize.ShloMosaic.TcCoe
  Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## The argument arrays -/

abbrev argX (c : Dev nD) : (⟨2, ![1048576, 4]⟩ : Shape).Idx → EReal := m ((c : Thread nD τ).loc main_arg0)
abbrev argW1 (c : Dev nD) : (⟨2, ![4, 64]⟩ : Shape).Idx → EReal := m ((c : Thread nD τ).loc main_arg1)
abbrev argB1 (c : Dev nD) : (⟨1, ![64]⟩ : Shape).Idx → EReal := m ((c : Thread nD τ).loc main_arg2)
abbrev argW2 (c : Dev nD) : (⟨2, ![64, 3]⟩ : Shape).Idx → EReal := m ((c : Thread nD τ).loc main_arg3)
abbrev argB2 (c : Dev nD) : (⟨1, ![3]⟩ : Shape).Idx → EReal := m ((c : Thread nD τ).loc main_arg4)

/-- The [3,N] array the region leaves: the specification with its two coordinates exchanged. -/
def regionOut (c : Dev nD) : S3x1048576.Idx → EReal := fun y =>
  maskedVelocity (argX m c) (argW1 m c) (argB1 m c) (argW2 m c) (argB2 m c) (ix2 (y 1) (y 0))

/-! ## What the host lines before the launch leave in the windows' arrays -/

theorem V_pts (c : Dev nD) : (V m c main_v3 : S4x1048576.Idx → EReal)
    = transpose S4x1048576 [1, 0] (argX m c) transposes_S1048576x4_S4x1048576_1_0 := by
  show StableHlo.after hostOps0 (fun b => m (c, b)) (Proc.devRef .tc main_v3) = _
  after_results <;> rfl

theorem V_w1 (c : Dev nD) : (V m c main_v4 : S64x4.Idx → EReal)
    = transpose S64x4 [1, 0] (argW1 m c) transposes_S4x64_S64x4_1_0 := by
  show StableHlo.after hostOps0 (fun b => m (c, b)) (Proc.devRef .tc main_v4) = _
  after_results <;> rfl

theorem V_b1 (c : Dev nD) : (V m c main_v5 : S64x1.Idx → EReal)
    = shapeCast S64x1 (argB1 m c) shapeCasts_S64_S64x1 := by
  show StableHlo.after hostOps0 (fun b => m (c, b)) (Proc.devRef .tc main_v5) = _
  after_results <;> rfl

theorem V_w2 (c : Dev nD) : (V m c main_v6 : S3x64.Idx → EReal)
    = transpose S3x64 [1, 0] (argW2 m c) transposes_S64x3_S3x64_1_0 := by
  show StableHlo.after hostOps0 (fun b => m (c, b)) (Proc.devRef .tc main_v6) = _
  after_results <;> rfl

theorem V_b2 (c : Dev nD) : (V m c main_v7 : S3x1.Idx → EReal)
    = shapeCast S3x1 (argB2 m c) shapeCasts_S3_S3x1 := by
  show StableHlo.after hostOps0 (fun b => m (c, b)) (Proc.devRef .tc main_v7) = _
  after_results <;> rfl

theorem V_ind (c : Dev nD) : (V m c main_v2 : S8x4.Idx → EReal)
    = shapeCast S8x4 (broadcastInDim S8x1x1x4 ![0, 1, 2, 3] bcast_S1x1x1x4_S8x1x1x4_0_1_2_3
        (shapeCast S1x1x1x4 (fun i => Ideal.ofBits .f32 (lit0 (S1x4.rowMajor i))) shapeCasts_S1x4_S1x1x1x4))
        shapeCasts_S8x1x1x4_S8x4 := by
  show StableHlo.after hostOps0 (fun b => m (c, b)) (Proc.devRef .tc main_v2) = _
  after_results <;> rfl

/-! ## Their entries -/

theorem pts_apply (c : Dev nD) (k : Fin 4) (p : Fin 1048576) : V m c main_v3 (ix2 k p) = argX m c (ix2 p k) := by
  rw [V_pts]
  exact transpose_apply [1, 0] (argX m c) transposes_S1048576x4_S4x1048576_1_0 (ix2 k p) (ix2 p k) (fun b => by
    match b with
    | ⟨0, _⟩ => rfl
    | ⟨1, _⟩ => rfl)

theorem w1_apply (c : Dev nD) (j : Fin 64) (k : Fin 4) : V m c main_v4 (ix2 j k) = argW1 m c (ix2 k j) := by
  rw [V_w1]
  exact transpose_apply [1, 0] (argW1 m c) transposes_S4x64_S64x4_1_0 (ix2 j k) (ix2 k j) (fun b => by
    match b with
    | ⟨0, _⟩ => rfl
    | ⟨1, _⟩ => rfl)

theorem w2_apply (c : Dev nD) (i : Fin 3) (j : Fin 64) : V m c main_v6 (ix2 i j) = argW2 m c (ix2 j i) := by
  rw [V_w2]
  exact transpose_apply [1, 0] (argW2 m c) transposes_S64x3_S3x64_1_0 (ix2 i j) (ix2 j i) (fun b => by
    match b with
    | ⟨0, _⟩ => rfl
    | ⟨1, _⟩ => rfl)

theorem b1_apply (c : Dev nD) (j : Fin 64) : V m c main_v5 (ix2 j 0) = argB1 m c (ix1 j) := by
  rw [V_b1]
  refine shapeCast_apply (argB1 m c) shapeCasts_S64_S64x1 (ix2 j 0) (ix1 j) ?_
  rw [Shape.rowMajor_val_one, Shape.rowMajor_val_two]
  show j.val = j.val * 1 + 0
  omega

theorem b2_apply (c : Dev nD) (i : Fin 3) : V m c main_v7 (ix2 i 0) = argB2 m c (ix1 i) := by
  rw [V_b2]
  refine shapeCast_apply (argB2 m c) shapeCasts_S3_S3x1 (ix2 i 0) (ix1 i) ?_
  rw [Shape.rowMajor_val_one, Shape.rowMajor_val_two]
  show i.val = i.val * 1 + 0
  omega

/-- Every row of the indicator matrix is the constant row. -/
theorem ind_apply (c : Dev nD) (a : Fin 8) (k : Fin 4) : V m c main_v2 (ix2 a k) = Ideal.ofBits .f32 (lit0 k) := by
  rw [V_ind]
  rw [shapeCast_apply _ shapeCasts_S8x1x1x4_S8x4 (ix2 a k) (ix4 a 0 0 k) (by
    rw [Shape.rowMajor_val_four, Shape.rowMajor_val_two]
    show ((a.val * 1 + 0) * 1 + 0) * 4 + k.val = a.val * 4 + k.val
    omega)]
  rw [broadcastInDim_apply _ bcast_S1x1x1x4_S8x1x1x4_0_1_2_3 _ (ix4 a 0 0 k) (ix4 0 0 0 k) (fun b => by
    match b with
    | ⟨0, _⟩ => show 0 = if (1 : Nat) = 1 then 0 else a.val; rw [if_pos rfl]
    | ⟨1, _⟩ => show 0 = if (1 : Nat) = 1 then 0 else 0; rw [if_pos rfl]
    | ⟨2, _⟩ => show 0 = if (1 : Nat) = 1 then 0 else 0; rw [if_pos rfl]
    | ⟨3, _⟩ => show k.val = if (4 : Nat) = 1 then 0 else k.val; rw [if_neg (by decide)])]
  rw [shapeCast_apply _ shapeCasts_S1x4_S1x1x1x4 (ix4 0 0 0 k) (ix2 0 k) (by
    rw [Shape.rowMajor_val_four, Shape.rowMajor_val_two]
    show 0 * 4 + k.val = ((0 * 1 + 0) * 1 + 0) * 4 + k.val
    omega)]
  have ek : S1x4.rowMajor (ix2 0 k) = k := Fin.ext (by
    rw [Shape.rowMajor_val_two]
    show 0 * 4 + k.val = k.val
    omega)
  rw [ek]

/-! ## The blocks a grid point works on -/

/-- The point of the array that column `q` of grid point `t`'s block holds. -/
def col (t : Fin cfg0.N) (q : Fin 65536) : Fin 1048576 :=
  ⟨t.val * 65536 + q.val, by have ht : t.val < 16 := N_0 ▸ t.isLt; have := q.isLt; omega⟩

/-- The printed index maps over the grid: the points' and the result's windows move along the
    second axis with the grid point; every other window stays on its whole array. -/
theorem index_facts : ∀ t : Fin cfg0.N,
    win0_0.index t (0 : Fin 2) = 0 ∧ win0_0.index t (1 : Fin 2) = t.val
    ∧ win0_6.index t (0 : Fin 2) = 0 ∧ win0_6.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

abbrev xblk (c : Dev nD) (t : Fin cfg0.N) : Vec Ideal S4x65536 .f32 := iblk m c 0 t
abbrev w1blk (c : Dev nD) (t : Fin cfg0.N) : Vec Ideal S64x4 .f32 := iblk m c 1 t
abbrev b1blk (c : Dev nD) (t : Fin cfg0.N) : Vec Ideal S64x1 .f32 := iblk m c 2 t
abbrev w2blk (c : Dev nD) (t : Fin cfg0.N) : Vec Ideal S3x64 .f32 := iblk m c 3 t
abbrev b2blk (c : Dev nD) (t : Fin cfg0.N) : Vec Ideal S3x1 .f32 := iblk m c 4 t
abbrev gblk (c : Dev nD) (t : Fin cfg0.N) : Vec Ideal S8x4 .f32 := iblk m c 5 t

theorem xblk_apply (c : Dev nD) (t : Fin cfg0.N) (k : Fin 4) (q : Fin 65536) :
    xblk m c t (ix2 k q) = argX m c (ix2 (col t q) k) := by
  rw [← pts_apply]
  obtain ⟨e0, e1, -⟩ := index_facts t
  show V m c main_v3 (((cfg0.win 0).blk t).view.emb (ix2 k q)) = V m c main_v3 (ix2 k (col t q))
  refine congrArg (V m c main_v3) (funext fun a => Fin.ext ?_)
  match a with
  | ⟨0, _⟩ => show win0_0.index t (0 : Fin 2) * 4 + 1 * k.val = k.val; omega
  | ⟨1, _⟩ => show win0_0.index t (1 : Fin 2) * 65536 + 1 * q.val = t.val * 65536 + q.val; omega

theorem w1blk_apply (c : Dev nD) (t : Fin cfg0.N) (j : Fin 64) (k : Fin 4) :
    w1blk m c t (ix2 j k) = argW1 m c (ix2 k j) := by
  rw [← w1_apply]
  obtain ⟨-, -, -, -, e0, e1, -⟩ := index_facts t
  show V m c main_v4 (((cfg0.win 1).blk t).view.emb (ix2 j k)) = V m c main_v4 (ix2 j k)
  refine congrArg (V m c main_v4) (funext fun a => Fin.ext ?_)
  match a with
  | ⟨0, _⟩ => show win0_1.index t (0 : Fin 2) * 64 + 1 * j.val = j.val; omega
  | ⟨1, _⟩ => show win0_1.index t (1 : Fin 2) * 4 + 1 * k.val = k.val; omega

theorem b1blk_apply (c : Dev nD) (t : Fin cfg0.N) (j : Fin 64) :
    b1blk m c t (ix2 j 0) = argB1 m c (ix1 j) := by
  rw [← b1_apply]
  obtain ⟨-, -, -, -, -, -, e0, e1, -⟩ := index_facts t
  show V m c main_v5 (((cfg0.win 2).blk t).view.emb (ix2 j 0)) = V m c main_v5 (ix2 j 0)
  refine congrArg (V m c main_v5) (funext fun a => Fin.ext ?_)
  match a with
  | ⟨0, _⟩ => show win0_2.index t (0 : Fin 2) * 64 + 1 * j.val = j.val; omega
  | ⟨1, _⟩ => show win0_2.index t (1 : Fin 2) * 1 + 1 * 0 = 0; omega

theorem w2blk_apply (c : Dev nD) (t : Fin cfg0.N) (i : Fin 3) (j : Fin 64) :
    w2blk m c t (ix2 i j) = argW2 m c (ix2 j i) := by
  rw [← w2_apply]
  obtain ⟨-, -, -, -, -, -, -, -, e0, e1, -⟩ := index_facts t
  show V m c main_v6 (((cfg0.win 3).blk t).view.emb (ix2 i j)) = V m c main_v6 (ix2 i j)
  refine congrArg (V m c main_v6) (funext fun a => Fin.ext ?_)
  match a with
  | ⟨0, _⟩ => show win0_3.index t (0 : Fin 2) * 3 + 1 * i.val = i.val; omega
  | ⟨1, _⟩ => show win0_3.index t (1 : Fin 2) * 64 + 1 * j.val = j.val; omega

theorem b2blk_apply (c : Dev nD) (t : Fin cfg0.N) (i : Fin 3) :
    b2blk m c t (ix2 i 0) = argB2 m c (ix1 i) := by
  rw [← b2_apply]
  obtain ⟨-, -, -, -, -, -, -, -, -, -, e0, e1, -⟩ := index_facts t
  show V m c main_v7 (((cfg0.win 4).blk t).view.emb (ix2 i 0)) = V m c main_v7 (ix2 i 0)
  refine congrArg (V m c main_v7) (funext fun a => Fin.ext ?_)
  match a with
  | ⟨0, _⟩ => show win0_4.index t (0 : Fin 2) * 3 + 1 * i.val = i.val; omega
  | ⟨1, _⟩ => show win0_4.index t (1 : Fin 2) * 1 + 1 * 0 = 0; omega

theorem gblk_apply (c : Dev nD) (t : Fin cfg0.N) (a : Fin 8) (k : Fin 4) :
    gblk m c t (ix2 a k) = Ideal.ofBits .f32 (lit0 k) := by
  rw [← ind_apply m c a k]
  obtain ⟨-, -, -, -, -, -, -, -, -, -, -, -, e0, e1⟩ := index_facts t
  show V m c main_v2 (((cfg0.win 5).blk t).view.emb (ix2 a k)) = V m c main_v2 (ix2 a k)
  refine congrArg (V m c main_v2) (funext fun b => Fin.ext ?_)
  match b with
  | ⟨0, _⟩ => show win0_5.index t (0 : Fin 2) * 8 + 1 * a.val = a.val; omega
  | ⟨1, _⟩ => show win0_5.index t (1 : Fin 2) * 4 + 1 * k.val = k.val; omega

/-! ## What a grid point writes back -/

theorem zero_offsets : (![0, 0] : Fin 2 → Nat) = fun _ => 0 := funext fun a => by fin_cases a <;> rfl

/-- Grid point `t` writes back its block of `regionOut`. -/
theorem flushed_eq (c : Dev nD) (t : Fin cfg0.N) :
    (dats m 0 c).flushed 6 t = ((cfg0.win 6).blk t).view.read (Elt Ideal) (regionOut m c) := by
  show (cfg0.win 6).cut (grid0.coords t) ((dats m 0 c).after 6 t) = _
  rw [after0_6]
  unfold out0_6
  rw [View.canon_unit_zero zero_offsets]
  simp only [View.ld_unit_zero (S := S4x65536) zero_offsets, View.ld_unit_zero (S := S8x4) zero_offsets,
    View.ld_unit_zero (S := S64x4) zero_offsets, View.ld_unit_zero (S := S64x1) zero_offsets,
    View.ld_unit_zero (S := S3x64) zero_offsets, View.ld_unit_zero (S := S3x1) zero_offsets]
  funext y
  obtain ⟨i, q, rfl⟩ : ∃ (i : Fin 3) (q : Fin 65536), y = ix2 i q := ⟨y 0, y 1, eq_ix2 y⟩
  obtain ⟨-, -, e0, e1, -⟩ := index_facts t
  have hemb : ((cfg0.win 6).blk t).view.emb (ix2 i q) = ix2 i (col t q) := funext fun a => Fin.ext (by
    match a with
    | ⟨0, _⟩ => show win0_6.index t (0 : Fin 2) * 3 + 1 * i.val = i.val; omega
    | ⟨1, _⟩ => show win0_6.index t (1 : Fin 2) * 65536 + 1 * q.val = t.val * 65536 + q.val; omega)
  show k0_pay1 (F := Ideal) (xblk m c t) (gblk m c t) (w1blk m c t) (b1blk m c t) (w2blk m c t) (b2blk m c t) (ix2 i q)
    = regionOut m c (((cfg0.win 6).blk t).view.emb (ix2 i q))
  rw [hemb]
  refine (Point.pay_apply (xblk m c t) (gblk m c t) (w1blk m c t) (b1blk m c t) (w2blk m c t) (b2blk m c t) i q).trans ?_
  exact Point.stored_eq_masked (xblk m c t) (gblk m c t) (w1blk m c t) (b1blk m c t) (w2blk m c t) (b2blk m c t)
    (argX m c) (argW1 m c) (argB1 m c) (argW2 m c) (argB2 m c) (col t q) i q
    (fun k => xblk_apply m c t k q) (fun a k => gblk_apply m c t a k) (fun j k => w1blk_apply m c t j k)
    (fun j => b1blk_apply m c t j) (fun i j => w2blk_apply m c t i j) (fun i => b2blk_apply m c t i)

/-! ## The sixteen blocks tile the result -/

theorem mem_block (t : Fin cfg0.N) (i : S3x1048576.Idx) :
    i ∈ ((cfg0.win 6).blk t).view.set ↔ ∀ a : Fin 2, win0_6.index t a * S3x65536.size a ≤ (i a).val
      ∧ (i a).val < win0_6.index t a * S3x65536.size a + S3x65536.size a := by
  show i ∈ ((View.whole main_v8).slice (win0_6.rect t)).set ↔ _
  rw [View.set_slice_whole, Rect.mem_set_unit]
  exact Iff.rfl

/-- Column `p` of the result lies in the block of grid point `p / 65536`. -/
theorem covered (i : S3x1048576.Idx) :
    ∃ t : Fin cfg0.N, (cfg0.win 6).flush t = true ∧ i ∈ ((cfg0.win 6).blk t).view.set := by
  have hi0 : (i 0).val < 3 := (i 0).isLt
  have hi1 : (i 1).val < 1048576 := (i 1).isLt
  let t : Fin cfg0.N := ⟨(i 1).val / 65536, by rw [show cfg0.N = 16 from N_0]; omega⟩
  refine ⟨t, flush0_6 t, ?_⟩
  rw [mem_block]
  obtain ⟨-, -, e0, e1, -⟩ := index_facts t
  have ht : t.val = (i 1).val / 65536 := rfl
  intro a
  match a with
  | ⟨0, _⟩ => show win0_6.index t (0 : Fin 2) * 3 ≤ (i 0).val ∧ (i 0).val < win0_6.index t (0 : Fin 2) * 3 + 3; omega
  | ⟨1, _⟩ => show win0_6.index t (1 : Fin 2) * 65536 ≤ (i 1).val ∧ (i 1).val < win0_6.index t (1 : Fin 2) * 65536 + 65536; omega

/-- The [3,N] array after the region. -/
theorem region_result (c : Dev nD) : (dats m 0 c).arrAt 6 cfg0.N = regionOut m c :=
  (dats m 0 c).arrAt_eq_of_cover 6 (regionOut m c) (fun t _ => flushed_eq m c t) covered

/-! ## The closing transpose, and the run -/

/-- The result of @main: the region's array transposed, which is the specification. -/
theorem tail_result (c : Dev nD) :
    (Pipeline.afterTail₀ cfgs (dats m) 0 (V0 m) [hostOps1] c main_v9 : S1048576x3.Idx → EReal)
      = maskedVelocity (argX m c) (argW1 m c) (argB1 m c) (argW2 m c) (argB2 m c) := by
  unfold Pipeline.afterTail₀
  show StableHlo.after hostOps1 _ (Proc.devRef .tc main_v9) = _
  after_results
  rw [show Pipeline.withArrays (cfgs 0).spec c (V0 m c) (fun w => (dats m 0 c).arrAt w (cfgs 0).N) (Proc.devRef .tc main_v8)
      = regionOut m c from (Pipeline.withArrays_arr spec0 launch0.win.arr_inj c _ _ 6).trans (region_result m c)]
  funext i
  obtain ⟨n, k, rfl⟩ : ∃ (n : Fin 1048576) (k : Fin 3), i = ix2 n k := ⟨i 0, i 1, eq_ix2 i⟩
  rw [transpose_apply [1, 0] (regionOut m c) transposes_S3x1048576_S1048576x3_1_0 (ix2 n k) (ix2 k n) (fun b => by
    match b with
    | ⟨0, _⟩ => rfl
    | ⟨1, _⟩ => rfl)]
  rfl

/-- Every weakly fair execution of the kernel program ends with the specification in its result
    and its arguments unchanged. -/
theorem run : θ_run defs (onTc (τ := τ) (main (F := Ideal))) ⟨m, fun _ => 0, ρ⟩ fun r => ∀ c : Dev nD,
      r.2.mem ((c.tc : Thread nD τ).loc main_v9) = maskedVelocity (argX m c) (argW1 m c) (argB1 m c) (argW2 m c) (argB2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v9 (Pipeline.mem_restRefs_of main_v9 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Whole

end
-- ==== Proof.RefValue.lean ====
/- The reference, read at an index, is the specification.

   Stage by stage: the slice keeps the three spatial coordinates; the two comparisons against
   -1.03 and +1.03 and their disjunction are 1 exactly when that coordinate is outside the box;
   the or-reduction along the coordinate axis, started from 0, is 1 exactly when some coordinate's
   bit is; the two matrix products are sums over their contracted axes, the biases are broadcast
   rows, and the final selection returns 0 where the reduced bit is set. -/
import proofs.«152543_g24309514896055_cont_9to1_421_21_alg».proof.Proof.RefRead
import proofs.«152543_g24309514896055_cont_9to1_421_21_alg».proof.Proof.Spec
import Idealize.ShloMosaic.PureOps.Reduce

noncomputable section

namespace Cert.ReferenceIdeal.RefValue

open Cert.ReferenceIdeal Cert.ReferenceIdeal.ReadP Cert.Bbox Idealize.ShloMosaic Idealize.ShloMosaic.ValueIdx

/-! ## Bits -/

theorem ori_one_iff (c d : BitVec 1) : IntOp.ori c d = 1#1 ↔ c = 1#1 ∨ d = 1#1 := by revert c d; decide

/-- A left fold by `or` over one-bit words is 1 exactly when it started at 1 or met a 1. -/
theorem foldl_ori_eq_one {ι : Type} (f : ι → BitVec 1) :
    ∀ (l : List ι) (init : BitVec 1), l.foldl (fun r n => IntOp.ori r (f n)) init = 1#1 ↔ init = 1#1 ∨ ∃ n ∈ l, f n = 1#1
  | [], init => by simp
  | a :: l, init => by
    rw [List.foldl_cons, foldl_ori_eq_one f l, ori_one_iff]
    constructor
    · rintro ((h | h) | ⟨n, hn, h⟩)
      · exact Or.inl h
      · exact Or.inr ⟨a, List.mem_cons_self, h⟩
      · exact Or.inr ⟨n, List.mem_cons_of_mem _ hn, h⟩
    · rintro (h | ⟨n, hn, h⟩)
      · exact Or.inl (Or.inl h)
      · rcases List.mem_cons.1 hn with rfl | hn
        · exact Or.inl (Or.inr h)
        · exact Or.inr ⟨n, hn, h⟩

/-- The or-reduction of an [N,3] bit array along its second axis, from 0: row `n`'s result is 1
    exactly when one of the row's three bits is. -/
theorem reduce_ori_row (x : (⟨2, ![1048576, 3]⟩ : Shape).Idx → BitVec 1)
    (h : (⟨2, ![1048576, 3]⟩ : Shape).ReducesTo [1] ⟨1, ![1048576]⟩) {u : Shape} (hu : 0 < u.numel) (n : Fin 1048576) :
    Host.reduce IntOp.ori x (constantI u 1 0#1) h hu (ix1 n) = 1#1 ↔ ∃ k : Fin 3, x (ix2 n k) = 1#1 := by
  rw [Host.reduce_eq_foldl, foldl_ori_eq_one]
  have hdrop : ∀ i : (⟨2, ![1048576, 3]⟩ : Shape).Idx, h.drop i = ix1 n ↔ i 0 = n := by
    intro i
    have hv : (h.drop i 0 : Nat) = i 0 := Shape.ReducesTo.drop_apply_val h i 0
    constructor
    · intro e; rw [e] at hv; exact Fin.ext hv.symm
    · intro e; funext b; have hb : b = 0 := Subsingleton.elim _ _; subst hb; exact Fin.ext (by rw [hv, e])
  constructor
  · rintro (h0 | ⟨i, hi, h1⟩)
    · exact absurd h0 (show ¬ (0#1 : BitVec 1) = 1#1 by decide)
    · rw [List.mem_filter] at hi
      have e0 : i 0 = n := (hdrop i).1 (of_decide_eq_true hi.2)
      refine ⟨i 1, ?_⟩
      have ei : ix2 n (i 1) = i := funext fun b => by
        match b with
        | ⟨0, _⟩ => exact e0.symm
        | ⟨1, _⟩ => rfl
      exact (congrArg x ei).trans h1
  · rintro ⟨k, hk⟩
    refine Or.inr ⟨ix2 n k, ?_, hk⟩
    rw [List.mem_filter]
    exact ⟨List.mem_map.2 ⟨(⟨2, ![1048576, 3]⟩ : Shape).rowMajor (ix2 n k), List.mem_finRange _, Equiv.symm_apply_apply _ _⟩,
      decide_eq_true ((hdrop _).2 rfl)⟩

theorem cmp_olt_eq_one (x y : EReal) : Ideal.cmp .olt x y = 1#1 ↔ x < y := by
  by_cases h : x < y <;> simp [Ideal.cmp, h]

theorem cmp_ogt_eq_one (x y : EReal) : Ideal.cmp .ogt x y = 1#1 ↔ y < x := by
  by_cases h : y < x <;> simp [Ideal.cmp, h]

/-! ## The stages -/

section Stages

variable (X : (⟨2, ![1048576, 4]⟩ : Shape).Idx → EReal) (W1 : (⟨2, ![4, 64]⟩ : Shape).Idx → EReal)
  (B1 : (⟨1, ![64]⟩ : Shape).Idx → EReal) (W2 : (⟨2, ![64, 3]⟩ : Shape).Idx → EReal)
  (B2 : (⟨1, ![3]⟩ : Shape).Idx → EReal)

/-- The reduced mask bit of point `n`. -/
theorem mask_ref (n : Fin 1048576) : val_main_v6 (F := Ideal) X (ix1 n) = 1#1 ↔ outside X n := by
  unfold val_main_v6 val_main_c
  rw [reduce_ori_row]
  unfold outside
  refine exists_congr fun k => ?_
  rw [val_main_v5_apply, ori_one_iff, val_main_v2_apply, val_main_v4_apply, val_main_v0_apply, val_main_v1_apply,
    val_main_v3_apply, val_main_cst_apply, val_main_cst_0_apply]
  have e0 : idx_main_v0 (ix2 n k) = ix2 n k.castSucc := funext fun a => Fin.ext (by
    match a with
    | ⟨0, _⟩ => rfl
    | ⟨1, _⟩ => rfl)
  rw [e0]
  show Ideal.cmp .olt _ (Ideal.ofBits .f32 0xBF83D70A#32) = 1#1 ∨ Ideal.cmp .ogt _ (Ideal.ofBits .f32 0x3F83D70A#32) = 1#1 ↔ _
  rw [ofBits_neg, ofBits_pos, cmp_olt_eq_one, cmp_ogt_eq_one]

/-- The hidden layer. -/
theorem hidden_ref (n : Fin 1048576) (j : Fin 64) :
    val_main_v12 (F := Ideal) X W1 B1 (ix2 n j) = hiddenUnit X W1 B1 n j := by
  rw [val_main_v12_apply, val_main_v10_apply, val_main_v7_apply, val_main_v9_apply, val_main_v8_apply, val_main_v11_apply,
    val_main_cst_1_apply]
  have e1 : ∀ k : Fin 4, lidx_main_v7 (ix2 n j) k = ix2 n k := fun k => funext fun a => by
    match a with
    | ⟨0, _⟩ => rfl
    | ⟨1, _⟩ => rfl
  have e2 : ∀ k : Fin 4, ridx_main_v7 (ix2 n j) k = ix2 k j := fun k => funext fun a => by
    match a with
    | ⟨0, _⟩ => rfl
    | ⟨1, _⟩ => rfl
  have e3 : idx_main_v8 (idx_main_v9 (ix2 n j)) = ix1 j := funext fun a => by
    match a with
    | ⟨0, _⟩ => rfl
  simp only [e1, e2, e3]
  show max (_ + _) (Ideal.ofBits .f32 0x00000000#32) = _
  rw [ofBits_zero]
  rfl

/-- The velocity. -/
theorem velocity_ref (n : Fin 1048576) (i : Fin 3) :
    val_main_v16 (F := Ideal) X W1 B1 W2 B2 (ix2 n i) = velocity X W1 B1 W2 B2 n i := by
  rw [val_main_v16_apply, val_main_v13_apply, val_main_v15_apply, val_main_v14_apply]
  have e1 : ∀ k : Fin 64, lidx_main_v13 (ix2 n i) k = ix2 n k := fun k => funext fun a => by
    match a with
    | ⟨0, _⟩ => rfl
    | ⟨1, _⟩ => rfl
  have e2 : ∀ k : Fin 64, ridx_main_v13 (ix2 n i) k = ix2 k i := fun k => funext fun a => by
    match a with
    | ⟨0, _⟩ => rfl
    | ⟨1, _⟩ => rfl
  have e3 : idx_main_v14 (idx_main_v15 (ix2 n i)) = ix1 i := funext fun a => by
    match a with
    | ⟨0, _⟩ => rfl
  simp only [e1, e2, e3, hidden_ref]
  rfl

/-- The reference's result is the specification. -/
theorem result_eq : val_main_v18 (F := Ideal) X W1 B1 W2 B2 = maskedVelocity X W1 B1 W2 B2 := by
  funext i
  obtain ⟨n, k, rfl⟩ : ∃ (n : Fin 1048576) (k : Fin 3), i = ix2 n k := ⟨i 0, i 1, eq_ix2 i⟩
  rw [val_main_v18_apply, val_main_call0_v0_apply, val_main_v17_apply, val_main_call0_v1_apply, val_main_cst_2_apply, velocity_ref]
  have e : idx_main_v17 (idx_main_call0_v0 (ix2 n k)) = ix1 n := funext fun a => by
    match a with
    | ⟨0, _⟩ => rfl
  rw [e]
  by_cases ho : outside X n
  · rw [maskedVelocity_outside X W1 B1 W2 B2 k ho, (mask_ref X n).2 ho, select_one]
    exact ofBits_zero
  · rw [maskedVelocity_inside X W1 B1 W2 B2 k ho, eq_zero_of_ne_one (fun h => ho ((mask_ref X n).1 h)), select_zero]

end Stages

end Cert.ReferenceIdeal.RefValue

end
-- ==== Proof.lean ====
/- The velocity network of a point cloud, masked by a bounding box: a Pallas kernel against its jnp reference.

   Both programs return, for each of N = 1048576 points X[n] = (x, y, z, time),
       0                                              if some spatial coordinate lies outside [-1.03, 1.03],
       W2ᵀ · max(W1ᵀ · X[n] + b1, 0) + b2             otherwise
   (three components per point).  The reference slices the three spatial coordinates, compares
   each with ±1.03, reduces the comparisons by "or" and selects.  The kernel works on transposed
   data, sixteen grid points of 65536 columns each: it tests 0 < G · max(|X| - 1.03, 0) with G the
   constant rows (1, 1, 1, 0), computes the two layers as matrix products with the transposed
   weights, and the host transposes the [3, N] result back.

   Over the extended reals the two agree index by index: a sum of non-negative terms is positive
   exactly when one of them is, max(|x| - h, 0) is positive exactly when x < -h or h < x, the
   pattern of -1.03 denotes the negative of the pattern of +1.03, and the kernel's products are
   the reference's with the two factors of each term exchanged.  Nothing here needs the inputs to
   be finite.

   Proof/Consts.lean reads the four float patterns; Proof/Spec.lean states the common function and
   the order facts; Proof/KernelPoint.lean reads one stored element of a grid point,
   Proof/PointSpec.lean identifies it with the specification, Proof/KernelArray.lean assembles the
   blocks into the result array and runs the closing transpose; Proof/RefValue.lean reads the
   reference stage by stage.  The three frames are the generated ones (the reference's is its run
   with the result dropped); the idealization rewrote nothing, so `preserves` is trivial. -/
import proofs.«152543_g24309514896055_cont_9to1_421_21_alg».proof.Defs
import proofs.«152543_g24309514896055_cont_9to1_421_21_alg».proof.Proof.Gen.Kernel
import proofs.«152543_g24309514896055_cont_9to1_421_21_alg».proof.Proof.Gen.Kernel.Skeleton
import proofs.«152543_g24309514896055_cont_9to1_421_21_alg».proof.Proof.Gen.Kernel.Launch
import proofs.«152543_g24309514896055_cont_9to1_421_21_alg».proof.Proof.Gen.Kernel.Points
import proofs.«152543_g24309514896055_cont_9to1_421_21_alg».proof.Proof.Gen.Kernel.Frame
import proofs.«152543_g24309514896055_cont_9to1_421_21_alg».proof.Proof.Gen.KernelIdeal
import proofs.«152543_g24309514896055_cont_9to1_421_21_alg».proof.Proof.Gen.KernelIdeal.Skeleton
import proofs.«152543_g24309514896055_cont_9to1_421_21_alg».proof.Proof.Gen.KernelIdeal.Launch
import proofs.«152543_g24309514896055_cont_9to1_421_21_alg».proof.Proof.Gen.KernelIdeal.Points
import proofs.«152543_g24309514896055_cont_9to1_421_21_alg».proof.Proof.Gen.KernelIdeal.Frame
import proofs.«152543_g24309514896055_cont_9to1_421_21_alg».proof.Proof.Gen.ReferenceIdeal
import proofs.«152543_g24309514896055_cont_9to1_421_21_alg».proof.Proof.Gen.Pre_finite_inputs
import proofs.«152543_g24309514896055_cont_9to1_421_21_alg».proof.Proof.RefRun
import proofs.«152543_g24309514896055_cont_9to1_421_21_alg».proof.Proof.RefRead
import proofs.«152543_g24309514896055_cont_9to1_421_21_alg».proof.Proof.KernelArray
import proofs.«152543_g24309514896055_cont_9to1_421_21_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs end with the masked velocity of the (agreeing) arguments in their result. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2.1, (hagree c).2.2.1, (hagree c).2.2.2.1, (hagree c).2.2.2.2]
  exact (Cert.ReferenceIdeal.ReadP.val_main_v18_eq _ _ _ _ _).trans (Cert.ReferenceIdeal.RefValue.result_eq _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
